-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024 : Shape := ⟨1, ![1024]⟩
abbrev S4096x8192 : Shape := ⟨2, ![4096, 8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S1024 32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  let main_c_6 : IVec S_ 32 := constantI S_ 32 8192#32
  let main_v18 : IVec S1024 32 := broadcastInDim S1024 ![] bcast_S_S1024 main_c_6
  let main_v19 : IVec S1024 1 := cmpi .slt main_arg1 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v17 main_v20
  main_v21

def fn {F : FTy → Type} [FloatOps F] (main_arg0 : FVec F S8192x4096 .f32) (main_arg1 : IVec S1024 32) (main_arg2 : FVec F S4096x8192 .f32) (main_arg3 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x8192 .f32 := Host.absf main_arg2
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192x4096 .f32 := Host.absf main_arg3
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg1 main_v14
  let main_c_5 : IVec S_ 1 := constantI S_ 1 1#1
  fn_part1 (F := F) main_arg1 main_v13 main_v15 main_c_5
-- ==== Kernel.lean ====
abbrev S8192x4096 : Shape := ⟨2, ![8192, 4096]⟩
abbrev S1024 : Shape := ⟨1, ![1024]⟩
abbrev S4096x8192 : Shape := ⟨2, ![4096, 8192]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S4096x1024 : Shape := ⟨2, ![4096, 1024]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 55
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1024, .i32⟩
  | .hbm, ⟨2, _⟩ => ⟨S4096x8192, .f32⟩
  | .hbm, ⟨3, _⟩ => ⟨S8192x4096, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S4096x1024, .f32⟩
  | .hbm, ⟨23, _⟩ => ⟨S4096x1024, .i1⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S1x1, .i32⟩
  | .hbm, ⟨40, _⟩ => ⟨S1024x1, .i32⟩
  | .hbm, ⟨41, _⟩ => ⟨S1024x1, .i1⟩
  | .hbm, ⟨42, _⟩ => ⟨S1024x1, .i1⟩
  | .hbm, ⟨43, _⟩ => ⟨S_, .i1⟩
  | .hbm, ⟨44, _⟩ => ⟨S1024, .i1⟩
  | .hbm, ⟨45, _⟩ => ⟨S1024x4096, .f32⟩
  | .hbm, ⟨46, _⟩ => ⟨S1024x4096, .i1⟩
  | .hbm, ⟨47, _⟩ => ⟨S_, .f32⟩
  | .hbm, ⟨48, _⟩ => ⟨S1024x4096, .f32⟩
  | .hbm, ⟨49, _⟩ => ⟨S1024x4096, .f32⟩
  | .hbm, ⟨50, _⟩ => ⟨S8192x4096, .bf16⟩
  | .hbm, ⟨51, _⟩ => ⟨S4096x1024, .bf16⟩
  | .hbm, ⟨52, _⟩ => ⟨S1024x4096, .bf16⟩
  | .hbm, ⟨53, _⟩ => ⟨S8192x1024, .bf16⟩
  | .hbm, ⟨54, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S4096x1024_1 : S1024.BroadcastsInDim S4096x1024 (![1] : Fin 1 → Fin S4096x1024.rank)
  bcast_S_S4096x1024 : S_.BroadcastsInDim S4096x1024 (![] : Fin 0 → Fin S4096x1024.rank)
  bcast_S1024_S1024x4096_0 : S1024.BroadcastsInDim S1024x4096 (![0] : Fin 1 → Fin S1024x4096.rank)
  bcast_S_S1024x4096 : S_.BroadcastsInDim S1024x4096 (![] : Fin 0 → Fin S1024x4096.rank)
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  gather_S4096x8192_S1024x1_S4096x1024_0_1_n_n_1_1_40961_wf : GatherDims.WF S4096x8192 S1024x1 S4096x1024 [0] [1] [] [1] [] 1 ![4096, 1]
  gather_S8192x4096_S1024x1_S1024x4096_1_0_n_n_0_1_14096_wf : GatherDims.WF S8192x4096 S1024x1 S1024x4096 [1] [0] [] [0] [] 1 ![1, 4096]
  dot_S1024x4096_S4096x1024_S1024x1024_1_0_0_1_n_n_wf : DotDims.WF S1024x4096 S4096x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x4096.size a
  hwx1_1 : ∀ i : grid1.Coords, EltTy.bits .bf16 = 32 ∨ (Rect.block (s := S1024x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def gather_S4096x8192_S1024x1_S4096x1024_0_1_n_n_1_1_40961 : GatherDims S4096x8192 S1024x1 S4096x1024 where
  offsetDims := [0]
  collapsedSliceDims := [1]
  operandBatchingDims := []
  startIndicesBatchingDims := []
  startIndexMap := [1]
  indexVectorDim := 1
  sliceSizes := ![4096, 1]
  wf := gather_S4096x8192_S1024x1_S4096x1024_0_1_n_n_1_1_40961_wf
def gather_S8192x4096_S1024x1_S1024x4096_1_0_n_n_0_1_14096 : GatherDims S8192x4096 S1024x1 S1024x4096 where
  offsetDims := [1]
  collapsedSliceDims := [0]
  operandBatchingDims := []
  startIndicesBatchingDims := []
  startIndexMap := [0]
  indexVectorDim := 1
  sliceSizes := ![1, 4096]
  wf := gather_S8192x4096_S1024x1_S1024x4096_1_0_n_n_0_1_14096_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S1024 : Shape := ⟨1, ![1024]⟩
abbrev S4096x8192 : Shape := ⟨2, ![4096, 8192]⟩
abbrev S_ : Shape := ⟨0, ![]⟩
abbrev S1024x1 : Shape := ⟨2, ![1024, 1]⟩
abbrev S4096x1024 : Shape := ⟨2, ![4096, 1024]⟩
abbrev S1024x4096 : Shape := ⟨2, ![1024, 4096]⟩
abbrev S8192x1024 : Shape := ⟨2, ![8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024, .i32⟩
  | .hbm, ⟨2, _⟩ => ⟨S4096x8192, .f32⟩
  | .hbm, ⟨3, _⟩ => ⟨S8192x4096, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S4096x1024, .f32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x4096, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S8192x1024 : S_.BroadcastsInDim S8192x1024 (![] : Fin 0 → Fin S8192x1024.rank)
  gather_S4096x8192_S1024x1_S4096x1024_0_1_n_n_1_1_40961_wf : GatherDims.WF S4096x8192 S1024x1 S4096x1024 [0] [1] [] [1] [] 1 ![4096, 1]
  gather_S8192x4096_S1024x1_S1024x4096_1_0_n_n_0_1_14096_wf : GatherDims.WF S8192x4096 S1024x1 S1024x4096 [1] [0] [] [0] [] 1 ![1, 4096]
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def gather_S4096x8192_S1024x1_S4096x1024_0_1_n_n_1_1_40961 : GatherDims S4096x8192 S1024x1 S4096x1024 where
  offsetDims := [0]
  collapsedSliceDims := [1]
  operandBatchingDims := []
  startIndicesBatchingDims := []
  startIndexMap := [1]
  indexVectorDim := 1
  sliceSizes := ![4096, 1]
  wf := gather_S4096x8192_S1024x1_S4096x1024_0_1_n_n_1_1_40961_wf
def gather_S8192x4096_S1024x1_S1024x4096_1_0_n_n_0_1_14096 : GatherDims S8192x4096 S1024x1 S1024x4096 where
  offsetDims := [1]
  collapsedSliceDims := [0]
  operandBatchingDims := []
  startIndicesBatchingDims := []
  startIndexMap := [0]
  indexVectorDim := 1
  sliceSizes := ![1, 4096]
  wf := gather_S8192x4096_S1024x1_S1024x4096_1_0_n_n_0_1_14096_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  The mathematics both programs compute, on the extended reals, index by index.

  With X : [8192, 4096], Us : [4096, 1024] (the selected columns of the first basis) and Vs : [1024, 4096] (the selected
  rows of the second), the hidden activations are P[i, k] = gate (∑ l, X[i, l] · Us[l, k]) with the gate
  gate a = a · (1 / (1 + e^(−a))), and the result is Out[i, j] = ∑ k, P[i, k] · Vs[k, j].
  The literal 1.0 is kept as the word both programs print; it is never evaluated.
-/
import Idealize.ShloMosaic.PureOps.Ideal
import Idealize.ShloMosaic.Lib.ValueIdx

noncomputable section

open scoped BigOperators

namespace Cert.SubspaceSpec

open Idealize.ShloMosaic Idealize.ShloMosaic.ValueIdx

/-- The word 1.0 of both programs, read at the extended reals. -/
def one : EReal := Ideal.ofBits .f32 0x3F800000#32

/-- a · (1 / (1 + e^(−a))): the gated unit, spelt as both programs spell it. -/
def gate (a : EReal) : EReal := a * Ideal.div one (one + Ideal.exp (-a))

/-- Row i of X against column k of Us. -/
def acc (X : (⟨2, ![8192, 4096]⟩ : Shape).Idx → EReal) (Us : (⟨2, ![4096, 1024]⟩ : Shape).Idx → EReal)
    (i : Fin 8192) (k : Fin 1024) : EReal :=
  ∑ l : Fin 4096, X (ix2 i l) * Us (ix2 l k)

/-- The hidden activations P = gate (X · Us). -/
def hidden (X : (⟨2, ![8192, 4096]⟩ : Shape).Idx → EReal) (Us : (⟨2, ![4096, 1024]⟩ : Shape).Idx → EReal) :
    (⟨2, ![8192, 1024]⟩ : Shape).Idx → EReal :=
  fun i => gate (acc X Us (i 0) (i 1))

/-- A [8192, 1024] array against a [1024, 4096] one: the plain matrix product, index by index. -/
def mm (P : (⟨2, ![8192, 1024]⟩ : Shape).Idx → EReal) (Vs : (⟨2, ![1024, 4096]⟩ : Shape).Idx → EReal) :
    (⟨2, ![8192, 4096]⟩ : Shape).Idx → EReal :=
  fun i => ∑ k : Fin 1024, P (ix2 (i 0) k) * Vs (ix2 k (i 1))

/-- The result: gate (X · Us) · Vs. -/
def out (X : (⟨2, ![8192, 4096]⟩ : Shape).Idx → EReal) (Us : (⟨2, ![4096, 1024]⟩ : Shape).Idx → EReal)
    (Vs : (⟨2, ![1024, 4096]⟩ : Shape).Idx → EReal) : (⟨2, ![8192, 4096]⟩ : Shape).Idx → EReal :=
  mm (hidden X Us) Vs

end Cert.SubspaceSpec

end
-- ==== Proof.Region0.lean ====
/-
  The first launch, as a value: whatever the buffers hold when it is entered, its result array ends as the gated hidden
  activations gate (X · Us) of its left operand X : [8192, 4096] and its right operand Us : [4096, 1024], with
  gate a = a · (1 / (1 + e^(−a))).

  Point t of the 8-point grid takes row block t of X and the whole of Us; the contraction runs over the whole shared axis,
  so entry (p, q) of the block is the gate of the full sum ∑ l, X[1024 t + p, l] · Us[l, q]. The body writes 0 − a for −a
  (the same extended real, the zero word being 0) and stores in a narrower float format (the identity on the extended
  reals). The row blocks tile the result.
-/
import proofs.«407924_j87101936763281_1_alg».proof.Proof.Gen.KernelIdeal.Frame
import proofs.«407924_j87101936763281_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.SubspaceSpec
open Idealize.ShloMosaic Idealize.ShloMosaic.TcCoe Idealize.SL.Sem Idealize.ShloMosaic.ValueIdx
open Idealize.ShloMosaic.Pipeline (Dat)

/-! ## The body's value at an index -/

theorem lhs_0 (i : S1024x1024.Idx) (q : dot_S1024x4096_S4096x1024_S1024x1024_1_0_0_1_n_n.contr.Idx) :
    (dot_S1024x4096_S4096x1024_S1024x1024_1_0_0_1_n_n.lhsIdx i q 0).val = (i 0).val := by
  unfold DotDims.lhsIdx
  rw [dif_neg (show ¬(0 : Fin S1024x4096.rank) ∈ dot_S1024x4096_S4096x1024_S1024x1024_1_0_0_1_n_n.lhsBatch by decide), dif_pos (show (0 : Fin S1024x4096.rank) ∈ dot_S1024x4096_S4096x1024_S1024x1024_1_0_0_1_n_n.lhsNonContracting by decide)]
  rfl
theorem lhs_1 (i : S1024x1024.Idx) (q : dot_S1024x4096_S4096x1024_S1024x1024_1_0_0_1_n_n.contr.Idx) :
    (dot_S1024x4096_S4096x1024_S1024x1024_1_0_0_1_n_n.lhsIdx i q 1).val = (q ⟨0, by decide⟩).val :=
  dot_S1024x4096_S4096x1024_S1024x1024_1_0_0_1_n_n.lhsIdx_val_of_single rfl i q
theorem rhs_0 (i : S1024x1024.Idx) (q : dot_S1024x4096_S4096x1024_S1024x1024_1_0_0_1_n_n.contr.Idx) :
    (dot_S1024x4096_S4096x1024_S1024x1024_1_0_0_1_n_n.rhsIdx i q 0).val = (q ⟨0, by decide⟩).val :=
  dot_S1024x4096_S4096x1024_S1024x1024_1_0_0_1_n_n.rhsIdx_val_of_single rfl i q
theorem rhs_1 (i : S1024x1024.Idx) (q : dot_S1024x4096_S4096x1024_S1024x1024_1_0_0_1_n_n.contr.Idx) :
    (dot_S1024x4096_S4096x1024_S1024x1024_1_0_0_1_n_n.rhsIdx i q 1).val = (i 1).val := by
  unfold DotDims.rhsIdx
  rw [dif_neg (show ¬(1 : Fin S4096x1024.rank) ∈ dot_S1024x4096_S4096x1024_S1024x1024_1_0_0_1_n_n.rhsBatch by decide), dif_pos (show (1 : Fin S4096x1024.rank) ∈ dot_S1024x4096_S4096x1024_S1024x1024_1_0_0_1_n_n.rhsNonContracting by decide)]
  rfl

/-- Entry (p, q) of the body's product of a [1024, 4096] block with a [4096, 1024] block is the sum over the shared axis. -/
theorem mm_apply (x0 : FVec Ideal S1024x4096 .bf16) (x1 : FVec Ideal S4096x1024 .bf16) (p q : Fin 1024) :
    FloatOps.matmul dot_S1024x4096_S4096x1024_S1024x1024_1_0_0_1_n_n none x0 x1 (constant S1024x1024 .f32 0x00000000#32) (ix2 p q)
      = ∑ l : Fin 4096, x0 (ix2 p l) * x1 (ix2 l q) := by
  rw [Ideal.matmul_constant_zero_apply, ← Equiv.sum_comp (ValueIdx.contrEquiv1 dot_S1024x4096_S4096x1024_S1024x1024_1_0_0_1_n_n 4096 rfl rfl).symm]
  refine Finset.sum_congr rfl fun k _ => ?_
  have hk := ValueIdx.contrEquiv1_symm_val dot_S1024x4096_S4096x1024_S1024x1024_1_0_0_1_n_n 4096 rfl rfl k
  have el : dot_S1024x4096_S4096x1024_S1024x1024_1_0_0_1_n_n.lhsIdx (ix2 p q) ((ValueIdx.contrEquiv1 dot_S1024x4096_S4096x1024_S1024x1024_1_0_0_1_n_n 4096 rfl rfl).symm k) = ix2 p k := funext fun a => Fin.ext (by
    match a with
    | ⟨0, _⟩ => exact lhs_0 _ _
    | ⟨1, _⟩ => exact (lhs_1 _ _).trans hk)
  have er : dot_S1024x4096_S4096x1024_S1024x1024_1_0_0_1_n_n.rhsIdx (ix2 p q) ((ValueIdx.contrEquiv1 dot_S1024x4096_S4096x1024_S1024x1024_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-- Entry (p, q) of what the body stores is the gate of that sum. -/
theorem pay_apply (x0 : Vec Ideal S1024x4096 .bf16) (x1 : Vec Ideal S4096x1024 .bf16) (p q : Fin 1024) :
    k0_pay1 (F := Ideal) x0 x1 (ix2 p q) = gate (∑ l : Fin 4096, x0 (ix2 p l) * x1 (ix2 l q)) := by
  unfold k0_pay1
  simp only [shapeCast_self, matmul]
  show FloatOps.matmul (F := Ideal) dot_S1024x4096_S4096x1024_S1024x1024_1_0_0_1_n_n none (x0 : FVec Ideal S1024x4096 .bf16) (x1 : FVec Ideal S4096x1024 .bf16) (constant S1024x1024 .f32 0x00000000#32) (ix2 p q)
      * Ideal.div (Ideal.ofBits .f32 0x3F800000#32) (Ideal.ofBits .f32 0x3F800000#32
        + Ideal.exp (Ideal.ofBits .f32 0x00000000#32 - FloatOps.matmul (F := Ideal) dot_S1024x4096_S4096x1024_S1024x1024_1_0_0_1_n_n none (x0 : FVec Ideal S1024x4096 .bf16) (x1 : FVec Ideal S4096x1024 .bf16) (constant S1024x1024 .f32 0x00000000#32) (ix2 p q))) = _
  rw [mm_apply x0 x1 p q, Ideal.ofBits_zero_f32, zero_sub]
  rfl

/-! ## The windows' blocks, read off the arrays -/

variable (V : (c : Dev nD) → (b : Ref sig .tc) → Buf (Elt Ideal) ((c : Thread nD τ).loc b))

/-- The left operand as the launch finds it. -/
abbrev lhsArr (c : Dev nD) : (⟨2, ![8192, 4096]⟩ : Shape).Idx → EReal := V c main_v2
/-- The right operand as the launch finds it. -/
abbrev rhsArr (c : Dev nD) : (⟨2, ![4096, 1024]⟩ : Shape).Idx → EReal := V c main_v3

/-- The relations between the three windows' block indices, decided over the grid: the left operand's row block is the
    result's and it has one column block; the right operand is one block; the result has one column block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7 ∧ win0_2.index t (1 : Fin 2) = 0 :=
  (by decide +kernel : ∀ t : Fin grid0.N, _)

/-- Every row block of the result is some point's. -/
theorem idx_onto : ∀ (q0 : Fin 8), ∃ t : Fin cfg0.N, win0_2.index t = ![q0.val, 0] :=
  (by decide +kernel : ∀ (q0 : Fin 8), ∃ t : Fin grid0.N, win0_2.index t = ![q0.val, 0])

/-- The left block at (p, l) is the array at (row block · 1024 + p, l). -/
theorem lblk_apply (c : Dev nD) (t : Fin cfg0.N) (p : Fin 1024) (l : Fin 4096) (r : Fin 8192)
    (hr : r.val = win0_2.index t (0 : Fin 2) * 1024 + p.val) :
    iblk0 V c 0 t (ix2 p l) = lhsArr V c (ix2 r l) := by
  obtain ⟨e0, e1, e2, e3, e4, e5⟩ := idx_facts t
  unfold iblk0
  rw [View.read_apply]
  show V c main_v2 _ = V c main_v2 _
  congr 1
  funext a
  apply Fin.ext
  match a with
  | ⟨0, _⟩ => show win0_0.index t (0 : Fin 2) * 1024 + 1 * p.val = r.val; omega
  | ⟨1, _⟩ => show win0_0.index t (1 : Fin 2) * 4096 + 1 * l.val = l.val; omega

/-- The right block is the whole right operand. -/
theorem rblk_apply (c : Dev nD) (t : Fin cfg0.N) (l : Fin 4096) (q : Fin 1024) :
    iblk0 V c 1 t (ix2 l q) = rhsArr V c (ix2 l q) := by
  obtain ⟨e0, e1, e2, e3, e4, e5⟩ := idx_facts t
  unfold iblk0
  rw [View.read_apply]
  show V c main_v3 _ = V c main_v3 _
  congr 1
  funext a
  apply Fin.ext
  match a with
  | ⟨0, _⟩ => show win0_1.index t (0 : Fin 2) * 4096 + 1 * l.val = l.val; omega
  | ⟨1, _⟩ => show win0_1.index t (1 : Fin 2) * 1024 + 1 * q.val = q.val; omega

/-! ## From the blocks to the array -/

theorem hz : (![0, 0] : Fin 2 → Nat) = fun _ => 0 := funext fun a => by fin_cases a <;> rfl

/-- The gated hidden activations of the two operands as the launch finds them. -/
def act (c : Dev nD) : (⟨2, ![8192, 1024]⟩ : Shape).Idx → EReal := Cert.SubspaceSpec.hidden (lhsArr V c) (rhsArr V c)

/-- What point t writes back is block t of the gated hidden activations. -/
theorem flushed_eq (c : Dev nD) (t : Fin cfg0.N) :
    (dat0 V c).flushed 2 t = ((cfg0.win 2).blk t).view.read (Elt Ideal) (act V c) := by
  show (cfg0.win 2).cut (grid0.coords t) ((dat0 V c).after 2 t) = _
  rw [after0_2]
  unfold out0_2
  rw [View.canon_unit_zero hz]
  simp only [View.ld_unit_zero (S := S1024x4096) hz, View.ld_unit_zero (S := S4096x1024) hz]
  funext j
  obtain ⟨p, q, rfl⟩ : ∃ (p : Fin 1024) (q : Fin 1024), j = ix2 p q := ⟨j 0, j 1, eq_ix2 j⟩
  obtain ⟨e0, e1, e2, e3, e4, e5⟩ := idx_facts t
  have hp : p.val < 1024 := p.isLt
  have hq : q.val < 1024 := q.isLt
  refine (pay_apply (iblk0 V c 0 t) (iblk0 V c 1 t) p q).trans ?_
  show _ = act V c (((cfg0.win 2).blk t).view.emb (ix2 p q))
  have hi : ((cfg0.win 2).blk t).view.emb (ix2 p q)
      = ix2 (⟨win0_2.index t (0 : Fin 2) * 1024 + p.val, by omega⟩ : Fin 8192) q := by
    funext a
    apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = q.val; omega
  rw [hi]
  unfold act Cert.SubspaceSpec.hidden Cert.SubspaceSpec.acc
  exact congrArg gate (Finset.sum_congr rfl fun l _ =>
    congrArg₂ (· * ·) (lblk_apply V c t p l _ rfl) (rblk_apply V c t l q))

/-- An index of the result is in point t's block iff each coordinate is in the block's range on its axis. -/
theorem mem_blk (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- The row blocks cover the result: row r lies in the block of the point whose block index is r / 1024. -/
theorem cover (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the launch is the gated hidden activations of the operands as the launch found them. -/
theorem final (c : Dev nD) : (dat0 V c).arrAt 2 cfg0.N = act V c :=
  (dat0 V c).arrAt_eq_of_cover 2 (act V c) (fun t _ => flushed_eq V c t) (cover)

end Cert.KernelIdeal.Region0

end
-- ==== Proof.Region1.lean ====
/-
  The second launch, as a value: whatever the buffers hold when it is entered, its result array ends as the plain
  matrix product of its left operand P : [8192, 1024] with its right operand Vs : [1024, 4096].

  Point t of the 8 × 4 grid multiplies the row block of P that the result block's row index names with the column block
  of Vs that its column index names; the contraction runs over the whole shared axis in one block, so entry (p, q) of the
  block is the full sum ∑ k, P[row, k] · Vs[k, col] of the array entry the block places it at. The blocks tile the
  result, so the whole array is that product.
-/
import proofs.«407924_j87101936763281_1_alg».proof.Proof.Gen.KernelIdeal.Frame
import proofs.«407924_j87101936763281_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Cert.SubspaceSpec
open Idealize.ShloMosaic Idealize.ShloMosaic.TcCoe Idealize.SL.Sem Idealize.ShloMosaic.ValueIdx
open Idealize.ShloMosaic.Pipeline (Dat)

/-! ## The body's product at an index -/

theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (p, q) of the body's product of two [1024, 1024] blocks is the sum over the shared axis. -/
theorem pay_apply (x0 x1 : Vec Ideal S1024x1024 .bf16) (p q : Fin 1024) :
    k1_pay1 (F := Ideal) x0 x1 (ix2 p q) = ∑ k : Fin 1024, x0 (ix2 p k) * x1 (ix2 k q) := by
  unfold k1_pay1
  simp only [shapeCast_self, matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-! ## The windows' blocks, read off the arrays -/

variable (V : (c : Dev nD) → (b : Ref sig .tc) → Buf (Elt Ideal) ((c : Thread nD τ).loc b))

/-- The left operand as the launch finds it. -/
abbrev lhsArr (c : Dev nD) : (⟨2, ![8192, 1024]⟩ : Shape).Idx → EReal := V c main_v5
/-- The right operand as the launch finds it. -/
abbrev rhsArr (c : Dev nD) : (⟨2, ![1024, 4096]⟩ : Shape).Idx → EReal := V c main_v4

/-- The relations between the three windows' block indices, decided over the grid: the left operand's row block is the
    result's and it has one column block; the right operand's column block is the result's and it has one row block. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 7 ∧ win1_2.index t (1 : Fin 2) ≤ 3 :=
  (by decide +kernel : ∀ t : Fin grid1.N, _)

/-- Every block of the result is some point's. -/
theorem idx_onto : ∀ (q0 : Fin 8) (q1 : Fin 4), ∃ t : Fin cfg1.N, win1_2.index t = ![q0.val, q1.val] :=
  (by decide +kernel : ∀ (q0 : Fin 8) (q1 : Fin 4), ∃ t : Fin grid1.N, win1_2.index t = ![q0.val, q1.val])

/-- The left block at (p, k) is the array at (row block · 1024 + p, k). -/
theorem lblk_apply (c : Dev nD) (t : Fin cfg1.N) (p k : Fin 1024) (r : Fin 8192)
    (hr : r.val = win1_2.index t (0 : Fin 2) * 1024 + p.val) :
    iblk1 V c 0 t (ix2 p k) = lhsArr V c (ix2 r k) := by
  obtain ⟨e0, e1, e2, e3, e4, e5⟩ := idx_facts t
  unfold iblk1
  rw [View.read_apply]
  show V c main_v5 _ = V c main_v5 _
  congr 1
  funext a
  apply Fin.ext
  match a with
  | ⟨0, _⟩ => show win1_0.index t (0 : Fin 2) * 1024 + 1 * p.val = r.val; omega
  | ⟨1, _⟩ => show win1_0.index t (1 : Fin 2) * 1024 + 1 * k.val = k.val; omega

/-- The right block at (k, q) is the array at (k, column block · 1024 + q). -/
theorem rblk_apply (c : Dev nD) (t : Fin cfg1.N) (k q : Fin 1024) (s : Fin 4096)
    (hs : s.val = win1_2.index t (1 : Fin 2) * 1024 + q.val) :
    iblk1 V c 1 t (ix2 k q) = rhsArr V c (ix2 k s) := by
  obtain ⟨e0, e1, e2, e3, e4, e5⟩ := idx_facts t
  unfold iblk1
  rw [View.read_apply]
  show V c main_v4 _ = V c main_v4 _
  congr 1
  funext a
  apply Fin.ext
  match a with
  | ⟨0, _⟩ => show win1_1.index t (0 : Fin 2) * 1024 + 1 * k.val = k.val; omega
  | ⟨1, _⟩ => show win1_1.index t (1 : Fin 2) * 1024 + 1 * q.val = s.val; omega

/-! ## From the blocks to the array -/

theorem hz : (![0, 0] : Fin 2 → Nat) = fun _ => 0 := funext fun a => by fin_cases a <;> rfl

/-- The product of the two operands as the launch finds them. -/
def prod (c : Dev nD) : (⟨2, ![8192, 4096]⟩ : Shape).Idx → EReal := mm (lhsArr V c) (rhsArr V c)

/-- What point t writes back is block t of the product. -/
theorem flushed_eq (c : Dev nD) (t : Fin cfg1.N) :
    (dat1 V c).flushed 2 t = ((cfg1.win 2).blk t).view.read (Elt Ideal) (prod V c) := by
  show (cfg1.win 2).cut (grid1.coords t) ((dat1 V c).after 2 t) = _
  rw [after1_2]
  unfold out1_2
  rw [View.canon_unit_zero hz]
  simp only [View.ld_unit_zero (S := S1024x1024) hz]
  funext j
  obtain ⟨p, q, rfl⟩ : ∃ (p : Fin 1024) (q : Fin 1024), j = ix2 p q := ⟨j 0, j 1, eq_ix2 j⟩
  obtain ⟨e0, e1, e2, e3, e4, e5⟩ := idx_facts t
  have hp : p.val < 1024 := p.isLt
  have hq : q.val < 1024 := q.isLt
  refine (pay_apply (iblk1 V c 0 t) (iblk1 V c 1 t) p q).trans ?_
  show _ = prod V c (((cfg1.win 2).blk t).view.emb (ix2 p q))
  have hi : ((cfg1.win 2).blk t).view.emb (ix2 p q)
      = ix2 (⟨win1_2.index t (0 : Fin 2) * 1024 + p.val, by omega⟩ : Fin 8192) (⟨win1_2.index t (1 : Fin 2) * 1024 + q.val, by omega⟩ : Fin 4096) := by
    funext a
    apply Fin.ext
    match a with
    | ⟨0, _⟩ => show win1_2.index t (0 : Fin 2) * 1024 + 1 * p.val = win1_2.index t (0 : Fin 2) * 1024 + p.val; omega
    | ⟨1, _⟩ => show win1_2.index t (1 : Fin 2) * 1024 + 1 * q.val = win1_2.index t (1 : Fin 2) * 1024 + q.val; omega
  rw [hi]
  unfold prod mm
  exact Finset.sum_congr rfl fun k _ =>
    congrArg₂ (· * ·) (lblk_apply V c t p k _ rfl) (rblk_apply V c t k q _ rfl)

/-- An index of the result is in point t's block iff each coordinate is in the block's range on its axis. -/
theorem mem_blk (t : Fin cfg1.N) (i : S8192x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v6).slice (win1_2.rect t)).set ↔ _
  rw [View.set_slice_whole, Rect.mem_set_unit]
  exact Iff.rfl

/-- The blocks cover the result: index (r, s) lies in the block of the point whose block index is (r / 1024, s / 1024). -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The result array after the launch is the product of the operands as the launch found them. -/
theorem final (c : Dev nD) : (dat1 V c).arrAt 2 cfg1.N = prod V c :=
  (dat1 V c).arrAt_eq_of_cover 2 (prod V c) (fun t _ => flushed_eq V c t) (cover)

end Cert.KernelIdeal.Region1

end
-- ==== Proof.HostSide.lean ====
/-
  The host operations before the first launch, read at the extended reals.

  Before the first launch the program gathers the selected columns of the first basis and the selected rows of the
  second (indices below zero wrapped by the axis length, an index outside the axis answered by a fill value), and changes
  the three arrays' float format, which is the identity on the extended reals. Under the precondition every index lies
  in [0, 8192), so the fill is never taken and the two gathered arrays are exactly the reference's gathers.
-/
import proofs.«407924_j87101936763281_1_alg».proof.Defs
import proofs.«407924_j87101936763281_1_alg».proof.Proof.Gen.KernelIdeal.Frame
import proofs.«407924_j87101936763281_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The index column both programs gather with: an index below zero wrapped by 8192, laid as a [1024, 1] column. -/
def widx (idx : IVec S1024 32) : IVec S1024x1 32 :=
  broadcastInDim S1024x1 ![0] bcast_S1024_S1024x1_0
    (select (cmpi .slt idx (broadcastInDim S1024 ![] bcast_S_S1024 (constantI S_ 32 0#32)))
      (addi idx (broadcastInDim S1024 ![] bcast_S_S1024 (constantI S_ 32 8192#32))) idx)

/-- The selected columns of the first basis. -/
def usel (c : Dev nD) : S4096x1024.Idx → EReal :=
  Host.gather gather_S4096x8192_S1024x1_S4096x1024_0_1_n_n_1_1_40961 (m ((c.tc : Thread nD τ).loc main_arg2))
    (widx (m ((c.tc : Thread nD τ).loc main_arg1)))

/-- The selected rows of the second basis. -/
def vsel (c : Dev nD) : S1024x4096.Idx → EReal :=
  Host.gather gather_S8192x4096_S1024x1_S1024x4096_1_0_n_n_0_1_14096 (m ((c.tc : Thread nD τ).loc main_arg3))
    (widx (m ((c.tc : Thread nD τ).loc main_arg1)))

/-! ## The three stretches, each read at the buffers it writes, over any contents before it -/

/-- The bounds test of the wrapped column, one bit per row: the wrapped index lies in [0, 8191]. -/
def inb (idx : IVec S1024 32) : IVec S1024 1 :=
  Host.reduce IntOp.andi
    (andi (cmpi .sge (widx idx) (broadcastInDim S1024x1 ![] bcast_S_S1024x1 (constantI S_ 32 0#32)))
      (cmpi .sle (widx idx) (broadcastInDim S1024x1 ![0, 1] bcast_S1x1_S1024x1_0_1
        (broadcastInDim S1x1 ![1] bcast_S1_S1x1_1 (constantI S1 32 8191#32)))))
    (constantI S_ 1 1#1) reducesTo_S1024x1_S1024_d1 h_S_

section Stretches
variable (V : Valuation τ sig (Elt Ideal))

theorem after2_v2 :
    @Eq (S8192x4096.Idx → EReal) (StableHlo.after hostOps0_2 V (Proc.devRef .tc main_v2))
      (truncf (F := Ideal) .bf16 (V (Proc.devRef .tc main_arg0) : FVec Ideal S8192x4096 .f32) bitsLt_bf16_f32) := by
  after_results

theorem after2_v3 :
    @Eq (S4096x1024.Idx → EReal) (StableHlo.after hostOps0_2 V (Proc.devRef .tc main_v3))
      (truncf (F := Ideal) .bf16 (V (Proc.devRef .tc main_v0) : FVec Ideal S4096x1024 .f32) bitsLt_bf16_f32) := by
  after_results

theorem after2_v4 :
    @Eq (S1024x4096.Idx → EReal) (StableHlo.after hostOps0_2 V (Proc.devRef .tc main_v4))
      (truncf (F := Ideal) .bf16 (V (Proc.devRef .tc main_v1) : FVec Ideal S1024x4096 .f32) bitsLt_bf16_f32) := by
  after_results

theorem after1_arg0 : StableHlo.after hostOps0_1 V (Proc.devRef .tc main_arg0) = V (Proc.devRef .tc main_arg0) := by
  after_results
theorem after1_v0 : StableHlo.after hostOps0_1 V (Proc.devRef .tc main_v0) = V (Proc.devRef .tc main_v0) := by
  after_results
theorem after0_arg0 : StableHlo.after hostOps0 V (Proc.devRef .tc main_arg0) = V (Proc.devRef .tc main_arg0) := by
  after_results
theorem after0_arg1 : StableHlo.after hostOps0 V (Proc.devRef .tc main_arg1) = V (Proc.devRef .tc main_arg1) := by
  after_results
theorem after0_arg3 : StableHlo.after hostOps0 V (Proc.devRef .tc main_arg3) = V (Proc.devRef .tc main_arg3) := by
  after_results

theorem after0_v0 :
    @Eq (S4096x1024.Idx → EReal) (StableHlo.after hostOps0 V (Proc.devRef .tc main_v0))
      (select (broadcastInDim S4096x1024 ![1] bcast_S1024_S4096x1024_1 (inb (V (Proc.devRef .tc main_arg1) : IVec S1024 32)))
        (Host.gather gather_S4096x8192_S1024x1_S4096x1024_0_1_n_n_1_1_40961 (V (Proc.devRef .tc main_arg2) : FVec Ideal S4096x8192 .f32)
          (widx (V (Proc.devRef .tc main_arg1) : IVec S1024 32)))
        (broadcastInDim S4096x1024 ![] bcast_S_S4096x1024 (constant (F := Ideal) S_ .f32 0x7FC00000#32))) := by
  after_results_simp
  rfl

theorem after1_v1 :
    @Eq (S1024x4096.Idx → EReal) (StableHlo.after hostOps0_1 V (Proc.devRef .tc main_v1))
      (select (broadcastInDim S1024x4096 ![0] bcast_S1024_S1024x4096_0 (inb (V (Proc.devRef .tc main_arg1) : IVec S1024 32)))
        (Host.gather gather_S8192x4096_S1024x1_S1024x4096_1_0_n_n_0_1_14096 (V (Proc.devRef .tc main_arg3) : FVec Ideal S8192x4096 .f32)
          (widx (V (Proc.devRef .tc main_arg1) : IVec S1024 32)))
        (broadcastInDim S1024x4096 ![] bcast_S_S1024x4096 (constant (F := Ideal) S_ .f32 0x7FC00000#32))) := by
  after_results_simp
  rfl

end Stretches

/-! ## Words and bits -/

/-- A left fold by `and` from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_one f hf l

/-- A word in [0, 8192) read signed is not below 0 and is at most 8191. -/
theorem word_range {w : BitVec 32} (h0 : IntOp.cmpi .sge w 0#32 = 1#1) (h1 : IntOp.cmpi .slt w 8192#32 = 1#1) :
    IntOp.cmpi .slt w 0#32 = 0#1 ∧ IntOp.cmpi .sle w 8191#32 = 1#1 := by
  have a0 := IntOp.cmpi_sge.1 h0
  have a1 := IntOp.cmpi_slt.1 h1
  have z : (0#32 : BitVec 32).toInt = 0 := by decide
  have z1 : (8192#32 : BitVec 32).toInt = 8192 := by decide
  have z2 : (8191#32 : BitVec 32).toInt = 8191 := by decide
  refine ⟨eq_zero_of_ne_one fun h => ?_, IntOp.cmpi_sle.2 (by omega)⟩
  have := IntOp.cmpi_slt.1 h
  omega

/-- A select on a bit that is 1 at the index reads its first operand there. -/
theorem select_of_one {s : Shape} {α : Type} (b : IVec s 1) (x y : s.Idx → α) (i : s.Idx) (hb : b i = 1#1) :
    select b x y i = x i := by
  rw [select_apply, hb, select_one]

/-- A row vector of ones laid along the second axis is one everywhere. -/
theorem bcast_cols_one (y : IVec S1024 1) (hy : ∀ k, y k = 1#1) (i : S4096x1024.Idx) :
    broadcastInDim S4096x1024 ![1] bcast_S1024_S4096x1024_1 y i = 1#1 := hy _

/-- A column vector of ones laid along the first axis is one everywhere. -/
theorem bcast_rows_one (y : IVec S1024 1) (hy : ∀ k, y k = 1#1) (i : S1024x4096.Idx) :
    broadcastInDim S1024x4096 ![0] bcast_S1024_S1024x4096_0 y i = 1#1 := hy _

/-- Each entry of the wrapped column is the wrap of one index word. -/
theorem widx_apply (idx : IVec S1024 32) (n : S1024x1.Idx) :
    ∃ k : S1024.Idx, widx idx n = Scalar.select (IntOp.cmpi .slt (idx k) 0#32) (IntOp.addi (idx k) 8192#32) (idx k) :=
  ⟨_, rfl⟩

/-- With every index word in [0, 8192) the bounds test holds on every row. -/
theorem inb_one (idx : IVec S1024 32)
    (h : ∀ j : S1024.Idx, IntOp.cmpi .sge (idx j) 0#32 = 1#1 ∧ IntOp.cmpi .slt (idx j) 8192#32 = 1#1) (k : S1024.Idx) :
    inb idx k = 1#1 := by
  unfold inb
  rw [Host.reduce_eq_foldl]
  refine foldl_andi_one _ (fun n => ?_) _
  show IntOp.andi (IntOp.cmpi .sge (widx idx n) 0#32) (IntOp.cmpi .sle (widx idx n) 8191#32) = 1#1
  obtain ⟨j, hj⟩ := widx_apply idx n
  obtain ⟨w0, w1⟩ := word_range (h j).1 (h j).2
  rw [hj, w0, select_zero, (h j).1, w1]
  rfl

/-! ## The precondition, decoded -/

/-- Under the precondition every index word lies in [0, 8192). -/
theorem idx_range (hpre : Cert.Pre_KernelIdeal m) (c : Dev nD) (j : S1024.Idx) :
    IntOp.cmpi .sge (m ((c.tc : Thread nD τ).loc main_arg1) j) 0#32 = 1#1
      ∧ IntOp.cmpi .slt (m ((c.tc : Thread nD τ).loc main_arg1) j) 8192#32 = 1#1 := by
  haveI : Subsingleton Cert.Pre_finite_inputs.S_.Idx := ⟨fun a b => funext fun d => d.elim0⟩
  have e := congrFun (hpre c) ValueIdx.ix0
  dsimp only [Cert.Pre_finite_inputs.fn, Cert.Pre_finite_inputs.fn_part1] at e
  obtain ⟨e1, e3⟩ := IntOp.andi_eq_one.1 e
  obtain ⟨-, e2⟩ := IntOp.andi_eq_one.1 e1
  exact ⟨Host.reduce_andi_all _ _ _ _ _ e2 j, Host.reduce_andi_all _ _ _ _ _ e3 j⟩

/-- The first launch's left operand is X. -/
theorem entry_x (c : Dev nD) (i : S8192x4096.Idx) :
    V3 m ρ c main_v2 i = m ((c.tc : Thread nD τ).loc main_arg0) i := by
  show (StableHlo.after hostOps0_2 (W2 m ρ c) (Proc.devRef .tc main_v2) : S8192x4096.Idx → EReal) i = _
  rw [after2_v2]
  show (StableHlo.after hostOps0_1 (W1 m ρ c) (Proc.devRef .tc main_arg0) : S8192x4096.Idx → EReal) i = _
  rw [after1_arg0]
  show (StableHlo.after hostOps0 (W0 m ρ c) (Proc.devRef .tc main_arg0) : S8192x4096.Idx → EReal) i = _
  rw [after0_arg0]

/-- The first launch's right operand is the selected columns. -/
theorem entry_u (hpre : Cert.Pre_KernelIdeal m) (c : Dev nD) (i : S4096x1024.Idx) :
    V3 m ρ c main_v3 i = usel m c i := by
  show (StableHlo.after hostOps0_2 (W2 m ρ c) (Proc.devRef .tc main_v3) : S4096x1024.Idx → EReal) i = _
  rw [after2_v3]
  show (StableHlo.after hostOps0_1 (W1 m ρ c) (Proc.devRef .tc main_v0) : S4096x1024.Idx → EReal) i = _
  rw [after1_v0]
  show (StableHlo.after hostOps0 (W0 m ρ c) (Proc.devRef .tc main_v0) : S4096x1024.Idx → EReal) i = _
  rw [after0_v0]
  exact select_of_one _ _ _ i (bcast_cols_one _ (inb_one _ (idx_range m hpre c)) i)

/-- The second launch's right operand is the selected rows. -/
theorem entry_v (hpre : Cert.Pre_KernelIdeal m) (c : Dev nD) (i : S1024x4096.Idx) :
    V3 m ρ c main_v4 i = vsel m c i := by
  show (StableHlo.after hostOps0_2 (W2 m ρ c) (Proc.devRef .tc main_v4) : S1024x4096.Idx → EReal) i = _
  rw [after2_v4]
  show (StableHlo.after hostOps0_1 (W1 m ρ c) (Proc.devRef .tc main_v1) : S1024x4096.Idx → EReal) i = _
  rw [after1_v1]
  have ea : (W1 m ρ c (Proc.devRef .tc main_arg1) : IVec S1024 32) = m ((c.tc : Thread nD τ).loc main_arg1) :=
    after0_arg1 (W0 m ρ c)
  have eb : (W1 m ρ c (Proc.devRef .tc main_arg3) : FVec Ideal S8192x4096 .f32) = m ((c.tc : Thread nD τ).loc main_arg3) :=
    after0_arg3 (W0 m ρ c)
  rw [ea, eb]
  exact select_of_one _ _ _ i (bcast_rows_one _ (inb_one _ (idx_range m hpre c)) i)

end Cert.KernelIdeal.HostSide

end
-- ==== Proof.KernelValue.lean ====
/-
  The idealized kernel's result, as a function of the argument arrays.

  The second launch leaves the product of its two operands as it found them; its right operand is the array of selected
  rows, which the first launch does not touch, and its left operand is what the first launch left: the gated hidden
  activations of X and the selected columns. Under the precondition the selected columns and rows are the plain gathers,
  so the result is the specification gate (X · Us) · Vs.
-/
import proofs.«407924_j87101936763281_1_alg».proof.Proof.Region0
import proofs.«407924_j87101936763281_1_alg».proof.Proof.Region1
import proofs.«407924_j87101936763281_1_alg».proof.Proof.HostSide
import proofs.«407924_j87101936763281_1_alg».proof.Proof.KernelRun

set_option maxRecDepth 16384

noncomputable section

namespace Cert.KernelIdeal.KernelValue

open Cert.KernelIdeal Cert.KernelIdeal.Gen Cert.SubspaceSpec Cert.KernelIdeal.HostSide
open Idealize.ShloMosaic Idealize.ShloMosaic.TcCoe Idealize.SL.Sem Idealize.ShloMosaic.ValueIdx

variable (m : (ℓ : Loc nD τ sig) → Buf (Elt Ideal) ℓ) (ρ : Dev nD → PrngReg)

/-- The specification at the argument arrays: X, the selected columns, the selected rows. -/
def spec (c : Dev nD) : (⟨2, ![8192, 4096]⟩ : Shape).Idx → EReal :=
  out (m ((c.tc : Thread nD τ).loc main_arg0)) (usel m c) (vsel m c)

/-- The second launch's left operand is what the first launch left: the gated hidden activations. -/
theorem entry_p (c : Dev nD) : V4 m ρ c main_v5 = Region0.act (V3 m ρ) c :=
  (W4_arr m ρ c 2).trans (Region0.final (V3 m ρ) c)

/-- The second launch's right operand is untouched by the first. -/
theorem entry_v4 (c : Dev nD) : V4 m ρ c main_v4 = V3 m ρ c main_v4 :=
  W4_of_ne m ρ c main_v4 (by decide)

/-- The result buffer after the run is the specification. -/
theorem result (hpre : Cert.Pre_KernelIdeal m) (c : Dev nD) :
    W5 m ρ c (Proc.devRef .tc main_v6) = spec m c := by
  refine ((W5_arr m ρ c 2).trans (Region1.final (V4 m ρ) c)).trans ?_
  unfold Region1.prod spec out
  have hl : Region1.lhsArr (V4 m ρ) c = hidden (m ((c.tc : Thread nD τ).loc main_arg0)) (usel m c) := by
    show V4 m ρ c main_v5 = _
    rw [entry_p]
    unfold Region0.act
    have hx : Region0.lhsArr (V3 m ρ) c = m ((c.tc : Thread nD τ).loc main_arg0) := funext fun i => entry_x m ρ c i
    have hu : Region0.rhsArr (V3 m ρ) c = usel m c := funext fun i => entry_u m ρ hpre c i
    rw [hx, hu]
  have hr : Region1.rhsArr (V4 m ρ) c = vsel m c := by
    show V4 m ρ c main_v4 = _
    rw [entry_v4]
    exact funext fun i => entry_v m ρ hpre c i
  rw [hl, hr]

end Cert.KernelIdeal.KernelValue

end
-- ==== Proof.RefSide.lean ====
/-
  The reference, read at the extended reals, is the specification: its last product is the plain matrix product of the
  gated hidden activations with the gathered rows, and the gated hidden activations are the gate of the product of X
  with the gathered columns, index by index.
-/
import proofs.«407924_j87101936763281_1_alg».proof.Proof.Gen.ReferenceIdeal.Run
import proofs.«407924_j87101936763281_1_alg».proof.Proof.Gen.ReferenceIdeal.Read
import proofs.«407924_j87101936763281_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.SubspaceSpec

/-- The left operand of the first product at (i, l). -/
theorem lidx14 (i : S8192x1024.Idx) (k : Fin 4096) : lidx_main_v14 i k = ix2 (i 0) k :=
  funext fun a => Fin.ext (by match a with | ⟨0, _⟩ => rfl | ⟨1, _⟩ => rfl)
/-- The right operand of the first product at (l, k). -/
theorem ridx14 (i : S8192x1024.Idx) (k : Fin 4096) : ridx_main_v14 i k = ix2 k (i 1) :=
  funext fun a => Fin.ext (by match a with | ⟨0, _⟩ => rfl | ⟨1, _⟩ => rfl)
/-- The left operand of the second product at (i, k). -/
theorem lidx16 (i : S8192x4096.Idx) (k : Fin 1024) : lidx_main_v16 i k = ix2 (i 0) k :=
  funext fun a => Fin.ext (by match a with | ⟨0, _⟩ => rfl | ⟨1, _⟩ => rfl)
/-- The right operand of the second product at (k, j). -/
theorem ridx16 (i : S8192x4096.Idx) (k : Fin 1024) : ridx_main_v16 i k = ix2 k (i 1) :=
  funext fun a => Fin.ext (by match a with | ⟨0, _⟩ => rfl | ⟨1, _⟩ => rfl)

/-- The reference's hidden activations are the gate of X against the gathered columns. -/
theorem hidden_eq (x0 : (⟨S8192x4096, .f32⟩ : BufTy).Contents (Elt Ideal)) (x1 : (⟨S1024, .i32⟩ : BufTy).Contents (Elt Ideal))
    (x2 : (⟨S4096x8192, .f32⟩ : BufTy).Contents (Elt Ideal)) (i : S8192x1024.Idx) :
    val_main_v15 (F := Ideal) x0 x1 x2 i = hidden x0 (val_main_v6 (F := Ideal) x1 x2) i := by
  have hacc : val_main_v14 (F := Ideal) x0 x1 x2 i = acc x0 (val_main_v6 (F := Ideal) x1 x2) (i 0) (i 1) := by
    rw [val_main_v14_apply]
    unfold acc
    exact Finset.sum_congr rfl fun k _ =>
      congrArg₂ (· * ·) (congrArg x0 (lidx14 i k)) (congrArg (val_main_v6 (F := Ideal) x1 x2) (ridx14 i k))
  rw [val_main_v15_apply, val_main_call0_v5_apply, val_main_call0_v4_apply, val_main_call0_cst_0_apply,
    val_main_call0_v3_apply, val_main_call0_v2_apply, val_main_call0_cst_apply, val_main_call0_v1_apply,
    val_main_call0_v0_apply, hacc]
  rfl

/-- The reference's result is the specification of X, the gathered columns and the gathered rows. -/
theorem result_eq (x0 : (⟨S8192x4096, .f32⟩ : BufTy).Contents (Elt Ideal)) (x1 : (⟨S1024, .i32⟩ : BufTy).Contents (Elt Ideal))
    (x2 : (⟨S4096x8192, .f32⟩ : BufTy).Contents (Elt Ideal)) (x3 : (⟨S8192x4096, .f32⟩ : BufTy).Contents (Elt Ideal)) :
    val_main_v16 (F := Ideal) x0 x1 x2 x3 = out x0 (val_main_v6 (F := Ideal) x1 x2) (val_main_v13 (F := Ideal) x1 x3) := by
  funext i
  rw [val_main_v16_apply]
  unfold out mm
  exact Finset.sum_congr rfl fun k _ =>
    congrArg₂ (· * ·) ((hidden_eq x0 x1 x2 _).trans (congrArg (hidden x0 (val_main_v6 (F := Ideal) x1 x2)) (lidx16 i k)))
      (congrArg (val_main_v13 (F := Ideal) x1 x3) (ridx16 i k))

end Cert.ReferenceIdeal.RefValue

end
-- ==== Proof.lean ====
/-
  Equivalence, over the extended reals, of a two-launch kernel for out = gate (X · U[:, idx]) · V[idx, :], with
  gate a = a · (1 / (1 + e^(−a))), against its array-library reference.

  Both programs gather the selected columns of U and rows of V (an index below zero wrapped by the axis length). The
  kernel's gather answers a fill value at an index outside the axis where the reference clamps it, so the two agree
  exactly where every index is in [0, 8192): that is the precondition's index conjunct. There, the first launch leaves
  gate (X · Us) block of rows by block of rows (the float-format changes around it are the identity on the extended
  reals, and 0 − a is −a), the second leaves its product with Vs block by block, and the blocks tile the arrays; the
  reference computes the same two products and the same gate as whole-array operations. Each entry of both results is
  gate-of-a-sum summed against Vs, the sums over the same index sets, so no law beyond reading each operation at an index
  is needed, and finiteness of the inputs is never used.
-/
import proofs.«407924_j87101936763281_1_alg».proof.Defs
import proofs.«407924_j87101936763281_1_alg».proof.Proof.Gen.Kernel
import proofs.«407924_j87101936763281_1_alg».proof.Proof.Gen.Kernel.Frame
import proofs.«407924_j87101936763281_1_alg».proof.Proof.Gen.KernelIdeal
import proofs.«407924_j87101936763281_1_alg».proof.Proof.Gen.KernelIdeal.Frame
import proofs.«407924_j87101936763281_1_alg».proof.Proof.Gen.ReferenceIdeal
import proofs.«407924_j87101936763281_1_alg».proof.Proof.Gen.ReferenceIdeal.Run
import proofs.«407924_j87101936763281_1_alg».proof.Proof.Gen.ReferenceIdeal.Read
import proofs.«407924_j87101936763281_1_alg».proof.Proof.Gen.Pre_finite_inputs
import proofs.«407924_j87101936763281_1_alg».proof.Proof.KernelValue
import proofs.«407924_j87101936763281_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's gathered columns are the kernel's: the same gather of the same wrapped index column. -/
theorem ref_columns (m : (ℓ : Loc Cert.KernelIdeal.nD Cert.KernelIdeal.τ Cert.KernelIdeal.sig) → Buf (Elt Ideal) ℓ)
    (c : Dev Cert.KernelIdeal.nD) :
    Cert.ReferenceIdeal.Read.val_main_v6 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.HostSide.usel m c := rfl

/-- The reference's gathered rows are the kernel's. -/
theorem ref_rows (m : (ℓ : Loc Cert.KernelIdeal.nD Cert.KernelIdeal.τ Cert.KernelIdeal.sig) → Buf (Elt Ideal) ℓ)
    (c : Dev Cert.KernelIdeal.nD) :
    Cert.ReferenceIdeal.Read.val_main_v13 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
      = Cert.KernelIdeal.HostSide.vsel m c := rfl

/-- From memories agreeing on the arguments both idealized programs end with the specification of those arguments in
    their result buffer: the kernel by its two launches read as values, the reference by its run read one operation at a
    time. -/
theorem algebraic : Cert.algebraic_KernelIdeal_ReferenceIdeal := by
  intro m ρ m' ρ' hpre hagree
  refine ⟨fun c => Cert.KernelIdeal.KernelValue.spec m c, ?_, ?_⟩
  · exact (θ_run Cert.KernelIdeal.defs _ _).mono
      (fun r h c => ⟨(h c).1.trans (Cert.KernelIdeal.KernelValue.result m ρ hpre c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    refine (Cert.ReferenceIdeal.Read.val_main_v16_eq (F := Ideal) _ _ _ _).trans ?_
    refine (Cert.ReferenceIdeal.RefValue.result_eq _ _ _ _).trans ?_
    rw [ref_columns m c, ref_rows m c]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
